-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8192 : Shape := ⟨1, ![8192]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S16384x4096 .f32) (main_arg1 : IVec S8192 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 4096#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S16384x4096 : Shape := ⟨2, ![16384, 4096]⟩
abbrev S8192 : Shape := ⟨1, ![8192]⟩
abbrev S_ : Shape := ⟨0, ![]⟩
abbrev S1x8192 : Shape := ⟨2, ![1, 8192]⟩
abbrev S16384x8192 : Shape := ⟨2, ![16384, 8192]⟩
abbrev S512x1024 : Shape := ⟨2, ![512, 1024]⟩
abbrev S1x2048 : Shape := ⟨2, ![1, 2048]⟩
abbrev S512x2048 : Shape := ⟨2, ![512, 2048]⟩
abbrev S1024x2048 : Shape := ⟨2, ![1024, 2048]⟩

abbrev nBuf : Space → Nat
  | .hbm => 19
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S8192, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S8192, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S1x8192, .i32⟩
  | .hbm, ⟨11, _⟩ => ⟨S16384x4096, .bf16⟩
  | .hbm, ⟨12, _⟩ => ⟨S16384x4096, .f32⟩
  | .hbm, ⟨13, _⟩ => ⟨S16384x4096, .f32⟩
  | .hbm, ⟨14, _⟩ => ⟨S16384x4096, .bf16⟩
  | .hbm, ⟨15, _⟩ => ⟨S16384x4096, .f32⟩
  | .hbm, ⟨16, _⟩ => ⟨S16384x4096, .f32⟩
  | .hbm, ⟨17, _⟩ => ⟨S16384x4096, .bf16⟩
  | .hbm, ⟨18, _⟩ => ⟨S16384x8192, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048, .i32⟩
  | .local _ .vmem, ⟨7, _⟩ => ⟨S1x2048, .i32⟩
  | .local _ .vmem, ⟨8, _⟩ => ⟨S512x2048, .f32⟩
  | .local _ .vmem, ⟨9, _⟩ => ⟨S512x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S8192 : S_.BroadcastsInDim S8192 (![] : Fin 0 → Fin S8192.rank)
  shapeCasts_S8192_S1x8192 : S8192.ShapeCasts S1x8192
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  iota_S1024x2048_d0_w32 : S1024x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  natLt_1_32 : 1 < 32
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x4096.size a
  hwx0_0 : ∀ i : grid0.Coords, EltTy.bits .bf16 = 32 ∨ (Rect.block (s := S16384x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x4096.size a
  hwx0_1 : ∀ i : grid0.Coords, EltTy.bits .bf16 = 32 ∨ (Rect.block (s := S16384x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x4096.size a
  hwx0_2 : ∀ i : grid0.Coords, EltTy.bits .bf16 = 32 ∨ (Rect.block (s := S16384x4096) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .i32 = 32 ∨ (Rect.block (s := S1x8192) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x8192.size a
  hwx0_4 : ∀ i : grid0.Coords, EltTy.bits .f32 = 32 ∨ (Rect.block (s := S16384x8192) S512x2048.size (cc0_transform_4 i) (hinb0_4 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S16384x8192 : Shape := ⟨2, ![16384, 8192]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8192, .i32⟩
  | .hbm, ⟨2, _⟩ => ⟨S_, .i32⟩
  | .hbm, ⟨3, _⟩ => ⟨S8192, .i32⟩
  | .hbm, ⟨4, _⟩ => ⟨S8192, .i1⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S8192x1, .i32⟩
  | .hbm, ⟨10, _⟩ => ⟨S1, .i32⟩
  | .hbm, ⟨11, _⟩ => ⟨S_, .i32⟩
  | .hbm, ⟨12, _⟩ => ⟨S8192x1, .i32⟩
  | .hbm, ⟨13, _⟩ => ⟨S8192x1, .i1⟩
  | .hbm, ⟨14, _⟩ => ⟨S1x1, .i32⟩
  | .hbm, ⟨15, _⟩ => ⟨S8192x1, .i32⟩
  | .hbm, ⟨16, _⟩ => ⟨S8192x1, .i1⟩
  | .hbm, ⟨17, _⟩ => ⟨S8192x1, .i1⟩
  | .hbm, ⟨18, _⟩ => ⟨S_, .i1⟩
  | .hbm, ⟨19, _⟩ => ⟨S8192, .i1⟩
  | .hbm, ⟨20, _⟩ => ⟨S16384x8192, .f32⟩
  | .hbm, ⟨21, _⟩ => ⟨S16384x8192, .i1⟩
  | .hbm, ⟨22, _⟩ => ⟨S_, .f32⟩
  | .hbm, ⟨23, _⟩ => ⟨S16384x8192, .f32⟩
  | .hbm, ⟨24, _⟩ => ⟨S16384x8192, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S16384x8192_1 : S8192.BroadcastsInDim S16384x8192 (![1] : Fin 1 → Fin S16384x8192.rank)
  bcast_S_S16384x8192 : S_.BroadcastsInDim S16384x8192 (![] : Fin 0 → Fin S16384x8192.rank)
  gather_S16384x4096_S8192x1_S16384x8192_0_1_n_n_1_1_163841_wf : GatherDims.WF S16384x4096 S8192x1 S16384x8192 [0] [1] [] [1] [] 1 ![16384, 1]

variable [Facts₀]

def gather_S16384x4096_S8192x1_S16384x8192_0_1_n_n_1_1_163841 : GatherDims S16384x4096 S8192x1 S16384x8192 where
  offsetDims := [0]
  collapsedSliceDims := [1]
  operandBatchingDims := []
  startIndicesBatchingDims := []
  startIndexMap := [1]
  indexVectorDim := 1
  sliceSizes := ![16384, 1]
  wf := gather_S16384x4096_S8192x1_S16384x8192_0_1_n_n_1_1_163841_wf

class Facts : Prop extends Facts₀ where

variable [Facts]
-- ==== Proof.PreRead.lean ====
/-
  What the precondition says of the two arguments.

  The predicate is the conjunction of three "for all" statements, each a reduction by `and` of an array of comparison
  bits down to one bit: every entry of `x` has absolute value below +∞, every index word is at least 0 read signed, and
  every index word is below 4096 read signed.  Over the extended reals the absolute value of `a` is `max a (-a)`, which is
  +∞ both at `a = ⊤` and at `a = ⊥`, so "below +∞" says that `a` is neither.  A 32-bit word that reads signed as an
  integer in [0, 4096) has its top bit clear, so it reads unsigned as the same number: its value is below 4096.
-/
import proofs.«403755_j52149492908459_3_alg».proof.Pre_finite_inputs
import proofs.«403755_j52149492908459_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.OneHot

open Idealize.ShloMosaic

/-- The rank-0 shape has one index: two such indices agree at every axis because there is no axis. -/
instance subsingleton_scalar_idx : Subsingleton Cert.Pre_finite_inputs.S_.Idx :=
  ⟨fun a b => funext fun d => d.elim0⟩

/-- The f32 pattern with all exponent bits set and no fraction bit is +∞. -/
theorem ofBits_inf : Ideal.ofBits .f32 0x7F800000#32 = (⊤ : EReal) := by
  simp [Ideal.ofBits, Ideal.ieee]

/-- An extended real whose absolute value `max a (-a)` compares below +∞ is neither infinity. -/
theorem finite_of_abs_lt_inf (a : EReal)
    (h : Ideal.cmp .olt (max a (-a)) (Ideal.ofBits .f32 0x7F800000#32) = 1#1) : a ≠ ⊤ ∧ a ≠ ⊥ := by
  rw [ofBits_inf] at h
  have hlt : max a (-a) < ⊤ := by
    simpa only [Ideal.cmp, StableHlo.Predicate.ofBool_eq_one_iff, decide_eq_true_eq] using h
  constructor
  · rintro rfl
    simp at hlt
  · rintro rfl
    simp at hlt

/-- A word that is at least 0 and below 4096, both read signed, has value below 4096. -/
theorem toNat_lt_of_signed_range (w : BitVec 32) (h0 : IntOp.cmpi .sge w 0#32 = 1#1)
    (h1 : IntOp.cmpi .slt w 4096#32 = 1#1) : w.toNat < 4096 := by
  rw [IntOp.cmpi_sge, show (0#32 : BitVec 32).toInt = 0 from by decide] at h0
  rw [IntOp.cmpi_slt, show (4096#32 : BitVec 32).toInt = 4096 from by decide] at h1
  have hc := BitVec.toInt_eq_toNat_cond w
  have hw := w.isLt
  split at hc <;> omega

/-- THE PRECONDITION READ: every entry of `x` is a real number and every index word is below 4096. -/
theorem of_pre [Cert.Pre_finite_inputs.Facts] (x : FVec Ideal Cert.Pre_finite_inputs.S16384x4096 .f32)
    (ha : IVec Cert.Pre_finite_inputs.S8192 32)
    (h : Cert.Pre_finite_inputs.fn (F := Ideal) x ha = fun _ => 1#1) :
    (∀ i, x i ≠ ⊤ ∧ x i ≠ ⊥) ∧ (∀ l, (ha l).toNat < 4096) := by
  have e := congrFun h ValueIdx.ix0
  dsimp only [Cert.Pre_finite_inputs.fn] at e
  obtain ⟨h12, h3⟩ := IntOp.andi_eq_one.1 e
  obtain ⟨h1, h2⟩ := IntOp.andi_eq_one.1 h12
  refine ⟨fun i => ?_, fun l => ?_⟩
  · exact finite_of_abs_lt_inf (x i) (Host.reduce_andi_all _ _ _ _ _ h1 i)
  · exact toNat_lt_of_signed_range (ha l) (Host.reduce_andi_all _ _ _ _ _ h2 l)
      (Host.reduce_andi_all _ _ _ _ _ h3 l)

end Cert.OneHot

end
-- ==== Proof.Slab.lean ====
/-
  The arithmetic of selecting one column by a one-hot contraction, with no program in sight.

  A one-hot column for the index word `w` has a one in row `r` exactly when `r = w` and zeros elsewhere, so the
  contraction of a row of `x` with it, over the extended reals, is the single entry `x w`: every other product is
  `x r · 0 = 0` (also when `x r` is infinite). Cut into slabs of 1024 rows, the slab starting at `base` contributes
  `x w` when `base ≤ w < base + 1024` and `0` otherwise (`sum_slab`); a slab of zeros contributes `0`
  (`sum_zero_slab`).  The rest is about words: a row number `1024·k + j` formed in 32-bit arithmetic does not wrap
  (`row_word_eq_iff`), a widened comparison bit read as a signed integer is `0` or `1` (`bit_toInt`), and clamping
  to `[0, 4095]` leaves a word that is already there unchanged (`clamp_id`).  `gatherCols` is the function both
  programs are shown to compute: `out[b, l] = x[b, idx[l]]`, the index word read as a natural number (capped at the
  last column, so that the function is total).
-/
import Idealize.ShloMosaic.PureOps.Ideal
import Idealize.ShloMosaic.Lib.ValueIdx
import Idealize.ShloMosaic.Lib.StableHlo.Predicate

noncomputable section

open scoped BigOperators

namespace Cert.OneHot

open Idealize.ShloMosaic Idealize.ShloMosaic.ValueIdx

/-- Over one slab of 1024 rows starting at `base`, the products of `f` with the indicator of "this row is row `c`"
    sum to `f` at `c`'s place in the slab when `c` lies in the slab, and to `0` when it does not. -/
theorem sum_slab (f : Fin 1024 → EReal) (base c : ℕ) :
    ∑ j : Fin 1024, f j * (if base + j.val = c then (1 : EReal) else 0)
      = if h : base ≤ c ∧ c < base + 1024 then f ⟨c - base, by omega⟩ else 0 := by
  split
  · rename_i h
    rw [Finset.sum_eq_single (⟨c - base, by omega⟩ : Fin 1024)]
    · rw [if_pos (show base + (c - base) = c by omega), mul_one]
    · intro j _ hj
      rw [if_neg, mul_zero]
      intro e
      exact hj (Fin.ext (show j.val = c - base by omega))
    · intro h'
      exact absurd (Finset.mem_univ _) h'
  · rename_i h
    refine Finset.sum_eq_zero fun j _ => ?_
    rw [if_neg, mul_zero]
    have := j.isLt
    omega

/-- A slab of zeros contributes nothing, whatever it is multiplied with. -/
theorem sum_zero_slab (g : Fin 1024 → EReal) : ∑ j : Fin 1024, (0 : EReal) * g j = 0 :=
  Finset.sum_eq_zero fun j _ => zero_mul _

/-- The row number `1024·k + j` of slab `k < 4`, formed as `j + k · 1024` in 32-bit words, is the word `w` exactly when
    it is `w`'s value: nothing wraps. -/
theorem row_word_eq_iff (j k : ℕ) (hj : j < 1024) (hk : k < 4) (w : BitVec 32) :
    IntOp.addi (BitVec.ofNat 32 j) (Scalar.muli (BitVec.ofNat 32 k) 1024#32) = w ↔ 1024 * k + j = w.toNat := by
  show BitVec.ofNat 32 j + BitVec.ofNat 32 k * 1024#32 = w ↔ _
  constructor
  · intro h
    rw [← h]
    simp only [BitVec.toNat_add, BitVec.toNat_mul, BitVec.toNat_ofNat]
    omega
  · intro h
    apply BitVec.eq_of_toNat_eq
    simp only [BitVec.toNat_add, BitVec.toNat_mul, BitVec.toNat_ofNat]
    omega

/-- A comparison bit widened to 32 bits and read as a signed integer is `1` when set and `0` when clear. -/
theorem bit_toInt (b : BitVec 1) : (((b.setWidth 32).toInt : ℝ) : EReal) = if b = 1#1 then 1 else 0 := by
  rcases BitVec.eq_zero_or_eq_one b with rfl | rfl
  · rw [if_neg (by decide)]
    show (((0 : ℤ) : ℝ) : EReal) = 0
    simp
  · rw [if_pos rfl]
    show (((1 : ℤ) : ℝ) : EReal) = 1
    simp

/-- Clamping to `[0, 4095]` (the larger of `0` and the word, then the smaller of `4095` and that) leaves a word below
    4096 as it is. -/
theorem clamp_id (w : BitVec 32) (hw : w.toNat < 4096) : IntOp.minsi 4095#32 (IntOp.maxsi 0#32 w) = w := by
  have hti : w.toInt = w.toNat := StableHlo.Predicate.toInt_eq_toNat_of_lt (by omega)
  have h0 : (0#32 : BitVec 32).toInt = 0 := by decide
  have h4 : (4095#32 : BitVec 32).toInt = 4095 := by decide
  have hmax : IntOp.maxsi 0#32 w = w := by
    unfold IntOp.maxsi
    rw [if_neg]
    simp only [BitVec.slt, hti, h0, decide_eq_true_eq]
    omega
  rw [hmax]
  unfold IntOp.minsi
  split <;> rename_i hc <;> simp only [BitVec.slt, hti, h4, decide_eq_true_eq] at hc
  · apply BitVec.eq_of_toNat_eq
    simp only [BitVec.toNat_ofNat]
    omega
  · rfl

/-- The column an index word selects among 4096: its value, capped at the last column. -/
def col (w : BitVec 32) : Fin 4096 := ⟨min w.toNat 4095, by omega⟩

theorem col_val (w : BitVec 32) (hw : w.toNat < 4096) : (col w).val = w.toNat := by
  show min w.toNat 4095 = w.toNat
  omega

/-- THE FUNCTION BOTH PROGRAMS COMPUTE: `out[b, l] = x[b, idx[l]]` over `x : [16384, 4096]`, `idx : [8192]`. -/
def gatherCols (x : (⟨2, ![16384, 4096]⟩ : Shape).Idx → EReal) (idx : (⟨1, ![8192]⟩ : Shape).Idx → BitVec 32) :
    (⟨2, ![16384, 8192]⟩ : Shape).Idx → EReal :=
  fun i => x (ix2 (i 0) (col (idx (ix1 (i 1)))))

end Cert.OneHot

end
-- ==== Proof.Arrays.lean ====
/-
  The arrays the kernel region finds, and its windows' blocks read at an element.

  Before the region the program clamps the index words to `[0, 4095]` and lays them out as one row, and splits `x` into
  three arrays by narrowing: `hi = x`, `mid = x − hi`, `lo = (x − hi) − mid` — over the extended reals a change of
  format is the identity, so `hi` IS `x`, `mid` is `x − x` and `lo` is `(x − x) − (x − x)`, both zero wherever `x` is a
  real number.  Grid point `t` of the `32 × 4 × 4` grid has coordinates `(t / 16, t / 4 % 4, t % 4)`: the three `x`-derived
  windows read rows `512·(t/16) + p` and columns `1024·(t%4) + r`, the index window reads entries `2048·(t/4%4) + q`, and
  the output window writes rows `512·(t/16) + p`, columns `2048·(t/4%4) + q`.  To keep the bookkeeping in plain natural
  numbers, `xAt` and `idxAt` read the two arguments at natural-number positions (zero off the array).
-/
import proofs.«403755_j52149492908459_3_alg».proof.Proof.Gen.KernelIdeal.Frame
import proofs.«403755_j52149492908459_3_alg».proof.Proof.Slab
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.Arrays

open Cert.KernelIdeal Cert.KernelIdeal.Gen Idealize.ShloMosaic Idealize.ShloMosaic.TcCoe Idealize.SL.Sem
open Idealize.ShloMosaic.ValueIdx Cert.OneHot

variable (m : (ℓ : Loc nD τ sig) → Buf (Elt Ideal) ℓ)

/-- The argument `x` on core `c`, as launched. -/
abbrev xArr (c : Dev nD) : FVec Ideal S16384x4096 .f32 := m ((c : Thread nD τ).loc main_arg0)
/-- The argument index words on core `c`, as launched. -/
abbrev idxArr (c : Dev nD) : IVec S8192 32 := m ((c : Thread nD τ).loc main_arg1)

/-- `x` at row `b`, column `w` given as natural numbers; `0` off the array. -/
def xAt (c : Dev nD) (b w : ℕ) : EReal :=
  if h : b < 16384 ∧ w < 4096 then xArr m c (ix2 ⟨b, h.1⟩ ⟨w, h.2⟩) else 0

/-- The value of index word `l`, `l` a natural number; `0` off the array. -/
def idxAt (c : Dev nD) (l : ℕ) : ℕ :=
  if h : l < 8192 then (idxArr m c (ix1 ⟨l, h⟩)).toNat else 0

theorem xAt_eq (c : Dev nD) (b w : ℕ) (hb : b < 16384) (hw : w < 4096) :
    xArr m c (ix2 ⟨b, hb⟩ ⟨w, hw⟩) = xAt m c b w := by
  unfold xAt
  rw [dif_pos ⟨hb, hw⟩]

theorem idxAt_eq (c : Dev nD) (l : ℕ) (hl : l < 8192) : (idxArr m c (ix1 ⟨l, hl⟩)).toNat = idxAt m c l := by
  unfold idxAt
  rw [dif_pos hl]

/-! ## The arrays at region entry -/

/-- The `hi` array is `x`. -/
theorem V_hi (c : Dev nD) : (V m c main_v2 : S16384x4096.Idx → EReal) = xArr m c := by
  dsimp only [V]
  simp only [hostOps0, hostOps0_1, hostOps0_2, List.flatten_cons, List.flatten_nil, List.append_nil, List.cons_append,
    List.nil_append]
  after_results
  rfl

/-- The `mid` array is `x − x`. -/
theorem V_mid (c : Dev nD) : (V m c main_v5 : S16384x4096.Idx → EReal) = fun i => xArr m c i - xArr m c i := by
  dsimp only [V]
  simp only [hostOps0, hostOps0_1, hostOps0_2, List.flatten_cons, List.flatten_nil, List.append_nil, List.cons_append,
    List.nil_append]
  after_results
  rfl

/-- The `lo` array is `(x − x) − (x − x)`. -/
theorem V_lo (c : Dev nD) : (V m c main_v8 : S16384x4096.Idx → EReal)
    = fun i => (xArr m c i - xArr m c i) - (xArr m c i - xArr m c i) := by
  dsimp only [V]
  simp only [hostOps0, hostOps0_1, hostOps0_2, List.flatten_cons, List.flatten_nil, List.append_nil, List.cons_append,
    List.nil_append]
  after_results
  rfl

/-- The index row is the clamped index words, relaid as `[1, 8192]`. -/
theorem V_idx (c : Dev nD) : (V m c main_v1 : S1x8192.Idx → BitVec 32)
    = shapeCast S1x8192 (fun l => IntOp.minsi 4095#32 (IntOp.maxsi 0#32 (idxArr m c l))) shapeCasts_S8192_S1x8192 := by
  dsimp only [V]
  simp only [hostOps0, hostOps0_1, hostOps0_2, List.flatten_cons, List.flatten_nil, List.append_nil, List.cons_append,
    List.nil_append]
  after_results
  rfl

/-! ## The grid's coordinates and the windows' block indices, decided once over the 512 points -/

theorem coord2 : ∀ t : Fin cfg0.N, (grid0.coords t 2).val = t.val % 4 :=
  (by decide +kernel : ∀ t : Fin grid0.N, (grid0.coords t 2).val = t.val % 4)
theorem index_hi : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem index_mid : ∀ t : Fin cfg0.N, win0_1.index t 0 = t.val / 16 ∧ win0_1.index t 1 = t.val % 4 :=
  (by decide +kernel : ∀ t : Fin grid0.N, win0_1.index t 0 = t.val / 16 ∧ win0_1.index t 1 = t.val % 4)
theorem index_lo : ∀ t : Fin cfg0.N, win0_2.index t 0 = t.val / 16 ∧ win0_2.index t 1 = t.val % 4 :=
  (by decide +kernel : ∀ t : Fin grid0.N, win0_2.index t 0 = t.val / 16 ∧ win0_2.index t 1 = t.val % 4)
theorem index_idx : ∀ t : Fin cfg0.N, win0_3.index t 0 = 0 ∧ win0_3.index t 1 = t.val / 4 % 4 :=
  (by decide +kernel : ∀ t : Fin grid0.N, win0_3.index t 0 = 0 ∧ win0_3.index t 1 = t.val / 4 % 4)
theorem index_out : ∀ t : Fin cfg0.N, win0_4.index t 0 = t.val / 16 ∧ win0_4.index t 1 = t.val / 4 % 4 :=
  (by decide +kernel : ∀ t : Fin grid0.N, win0_4.index t 0 = t.val / 16 ∧ win0_4.index t 1 = t.val / 4 % 4)

theorem N_eq : cfg0.N = 512 := N_0

/-! ## The input blocks at an element -/

/-- The `hi` block at point `t`, element `(p, r)`: `x` at row `512·(t/16) + p`, column `1024·(t%4) + r`. -/
theorem hi_apply (c : Dev nD) (t : Fin cfg0.N) (p : Fin 512) (r : Fin 1024) :
    (iblk m c 0 t : Vec Ideal S512x1024 .bf16) (ix2 p r) = xAt m c (512 * (t.val / 16) + p.val) (1024 * (t.val % 4) + r.val) := by
  have ht : t.val < 512 := N_eq ▸ t.isLt
  rw [← xAt_eq m c _ _ (by omega) (by omega)]
  unfold iblk
  rw [View.read_apply]
  show (V m c main_v2 : S16384x4096.Idx → EReal) _ = _
  rw [V_hi]
  refine congrArg (xArr m c) (funext fun a => Fin.ext ?_)
  match a with
  | ⟨0, _⟩ => show win0_0.index t 0 * 512 + 1 * p.val = 512 * (t.val / 16) + p.val; rw [(index_hi t).1]; omega
  | ⟨1, _⟩ => show win0_0.index t 1 * 1024 + 1 * r.val = 1024 * (t.val % 4) + r.val; rw [(index_hi t).2]; omega

/-- The `mid` block at an element: `x − x` at the same place. -/
theorem mid_apply (c : Dev nD) (t : Fin cfg0.N) (p : Fin 512) (r : Fin 1024) :
    (iblk m c 1 t : Vec Ideal S512x1024 .bf16) (ix2 p r)
      = xAt m c (512 * (t.val / 16) + p.val) (1024 * (t.val % 4) + r.val) - xAt m c (512 * (t.val / 16) + p.val) (1024 * (t.val % 4) + r.val) := by
  have ht : t.val < 512 := N_eq ▸ t.isLt
  rw [← xAt_eq m c _ _ (by omega) (by omega)]
  unfold iblk
  rw [View.read_apply]
  show (V m c main_v5 : S16384x4096.Idx → EReal) _ = _
  rw [V_mid]
  have e : ∀ i j : S16384x4096.Idx, i = j → xArr m c i - xArr m c i = xArr m c j - xArr m c j := fun i j h => by rw [h]
  refine e _ _ (funext fun a => Fin.ext ?_)
  match a with
  | ⟨0, _⟩ => show win0_1.index t 0 * 512 + 1 * p.val = 512 * (t.val / 16) + p.val; rw [(index_mid t).1]; omega
  | ⟨1, _⟩ => show win0_1.index t 1 * 1024 + 1 * r.val = 1024 * (t.val % 4) + r.val; rw [(index_mid t).2]; omega

/-- The `lo` block at an element: `(x − x) − (x − x)` at the same place. -/
theorem lo_apply (c : Dev nD) (t : Fin cfg0.N) (p : Fin 512) (r : Fin 1024) :
    (iblk m c 2 t : Vec Ideal S512x1024 .bf16) (ix2 p r)
      = (xAt m c (512 * (t.val / 16) + p.val) (1024 * (t.val % 4) + r.val) - xAt m c (512 * (t.val / 16) + p.val) (1024 * (t.val % 4) + r.val))
        - (xAt m c (512 * (t.val / 16) + p.val) (1024 * (t.val % 4) + r.val) - xAt m c (512 * (t.val / 16) + p.val) (1024 * (t.val % 4) + r.val)) := by
  have ht : t.val < 512 := N_eq ▸ t.isLt
  rw [← xAt_eq m c _ _ (by omega) (by omega)]
  unfold iblk
  rw [View.read_apply]
  show (V m c main_v8 : S16384x4096.Idx → EReal) _ = _
  rw [V_lo]
  have e : ∀ i j : S16384x4096.Idx, i = j →
      (xArr m c i - xArr m c i) - (xArr m c i - xArr m c i) = (xArr m c j - xArr m c j) - (xArr m c j - xArr m c j) :=
    fun i j h => by rw [h]
  refine e _ _ (funext fun a => Fin.ext ?_)
  match a with
  | ⟨0, _⟩ => show win0_2.index t 0 * 512 + 1 * p.val = 512 * (t.val / 16) + p.val; rw [(index_lo t).1]; omega
  | ⟨1, _⟩ => show win0_2.index t 1 * 1024 + 1 * r.val = 1024 * (t.val % 4) + r.val; rw [(index_lo t).2]; omega

/-- The index block at point `t`, entry `q`: the clamped index word `2048·(t/4%4) + q`. -/
theorem idx_apply (c : Dev nD) (t : Fin cfg0.N) (q : Fin 2048) (hl : 2048 * (t.val / 4 % 4) + q.val < 8192) :
    (iblk m c 3 t : Vec Ideal S1x2048 .i32) (ix2 (0 : Fin 1) q)
      = IntOp.minsi 4095#32 (IntOp.maxsi 0#32 (idxArr m c (ix1 ⟨2048 * (t.val / 4 % 4) + q.val, hl⟩))) := by
  unfold iblk
  rw [View.read_apply]
  show (V m c main_v1 : S1x8192.Idx → BitVec 32) _ = _
  rw [V_idx]
  refine shapeCast_apply _ _ _ (ix1 ⟨2048 * (t.val / 4 % 4) + q.val, hl⟩) ?_
  rw [Shape.rowMajor_val_one, Shape.rowMajor_val_two]
  show 2048 * (t.val / 4 % 4) + q.val = (win0_3.index t 0 * 1 + 1 * 0) * 8192 + (win0_3.index t 1 * 2048 + 1 * q.val)
  rw [(index_idx t).1, (index_idx t).2]
  omega

end Cert.KernelIdeal.Arrays

end
-- ==== Proof.Body.lean ====
/-
  One grid step's arithmetic, read at one output element over the extended reals.

  At grid point `(i, n, k)` the body builds the one-hot slab `oh[j, q] = [1024·k + j = idx[q]]` (a row counter compared
  with the broadcast index row, the bit widened and converted), and adds to the output block, in this order, the
  three products `hi · oh`, `mid · oh`, `lo · oh` of the three [512, 1024] input blocks with it.  Read at element
  `(p, q)` each product is a sum over the slab's 1024 rows (`matmul_at`); the slab's entry is `1` or `0` by the word
  equation (`onehot_apply`); and the three accumulations unfold to `((acc + Σ hi·oh) + Σ mid·oh) + Σ lo·oh`
  (`step_apply`).
-/
import proofs.«403755_j52149492908459_3_alg».proof.Proof.Gen.KernelIdeal.Skeleton
import proofs.«403755_j52149492908459_3_alg».proof.Proof.Slab
import Idealize.ShloMosaic.PureOps.Ideal.Laws
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Cert.OneHot

/-! ## The product's operand indices: output `(p, q)` and slab row `r` read the left block at `(p, r)`, the slab at `(r, q)` -/

theorem lhs_axis0 (i : S512x2048.Idx) (r : dot_S512x1024_S1024x2048_S512x2048_1_0_0_1_n_n.contr.Idx) :
    (dot_S512x1024_S1024x2048_S512x2048_1_0_0_1_n_n.lhsIdx i r 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl

theorem lhs_axis1 (i : S512x2048.Idx) (r : dot_S512x1024_S1024x2048_S512x2048_1_0_0_1_n_n.contr.Idx) :
    (dot_S512x1024_S1024x2048_S512x2048_1_0_0_1_n_n.lhsIdx i r 1).val = (r ⟨0, by decide⟩).val :=
  dot_S512x1024_S1024x2048_S512x2048_1_0_0_1_n_n.lhsIdx_val_of_single rfl i r

theorem rhs_axis0 (i : S512x2048.Idx) (r : dot_S512x1024_S1024x2048_S512x2048_1_0_0_1_n_n.contr.Idx) :
    (dot_S512x1024_S1024x2048_S512x2048_1_0_0_1_n_n.rhsIdx i r 0).val = (r ⟨0, by decide⟩).val :=
  dot_S512x1024_S1024x2048_S512x2048_1_0_0_1_n_n.rhsIdx_val_of_single rfl i r

theorem rhs_axis1 (i : S512x2048.Idx) (r : dot_S512x1024_S1024x2048_S512x2048_1_0_0_1_n_n.contr.Idx) :
    (dot_S512x1024_S1024x2048_S512x2048_1_0_0_1_n_n.rhsIdx i r 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-- A product into the zero accumulator, read at `(p, q)`: the sum over the 1024 slab rows of left `(p, r)` times
    right `(r, q)`. -/
theorem matmul_at (X : FVec Ideal S512x1024 .bf16) (Y : FVec Ideal S1024x2048 .bf16) (p : Fin 512) (q : Fin 2048) :
    matmul dot_S512x1024_S1024x2048_S512x2048_1_0_0_1_n_n none X Y (constant S512x2048 .f32 0x00000000#32) (ix2 p q)
      = ∑ r : Fin 1024, X (ix2 p r) * Y (ix2 r q) := by
  simp only [matmul]
  rw [Ideal.matmul_constant_zero_apply,
    ← Equiv.sum_comp (ValueIdx.contrEquiv1 dot_S512x1024_S1024x2048_S512x2048_1_0_0_1_n_n 1024 rfl rfl).symm]
  refine Finset.sum_congr rfl fun r _ => ?_
  have hr := ValueIdx.contrEquiv1_symm_val dot_S512x1024_S1024x2048_S512x2048_1_0_0_1_n_n 1024 rfl rfl r
  have el : dot_S512x1024_S1024x2048_S512x2048_1_0_0_1_n_n.lhsIdx (ix2 p q)
      ((ValueIdx.contrEquiv1 dot_S512x1024_S1024x2048_S512x2048_1_0_0_1_n_n 1024 rfl rfl).symm r) = ix2 p r :=
    funext fun a => Fin.ext (by
      match a with
      | ⟨0, _⟩ => exact lhs_axis0 _ _
      | ⟨1, _⟩ => exact (lhs_axis1 _ _).trans hr)
  have er : dot_S512x1024_S1024x2048_S512x2048_1_0_0_1_n_n.rhsIdx (ix2 p q)
      ((ValueIdx.contrEquiv1 dot_S512x1024_S1024x2048_S512x2048_1_0_0_1_n_n 1024 rfl rfl).symm r) = ix2 r q :=
    funext fun a => Fin.ext (by
      match a with
      | ⟨0, _⟩ => exact (rhs_axis0 _ _).trans hr
      | ⟨1, _⟩ => exact rhs_axis1 _ _)
  rw [el, er]

/-- The one-hot slab's entry `(j, q)` at grid point `i`: `1` when the row word `j + k·1024` is the index word of
    column `q`, else `0`. -/
theorem onehot_apply (i : grid0.Coords) (v7 : Vec Ideal S1x2048 .i32) (j : Fin 1024) (q : Fin 2048) :
    k0_pay3 (F := Ideal) i v7 (ix2 j q)
      = if IntOp.addi (BitVec.ofNat 32 j.val) (Scalar.muli (BitVec.ofNat 32 (i 2).val) 1024#32) = v7 (ix2 (0 : Fin 1) q)
        then (1 : EReal) else 0 := by
  unfold k0_pay3
  have e1 : iota .tc S1024x2048 32 [0] iota_S1024x2048_d0_w32 (ix2 j q) = BitVec.ofNat 32 j.val :=
    iota_single_apply _ _ _ _ _ _
  have e2 : broadcastTo S1024x2048 (shapeCast S1x2048 v7 shapeCasts_S1x2048_S1x2048) broadcasts_S1x2048_S1024x2048 (ix2 j q)
      = v7 (ix2 (0 : Fin 1) q) := by
    rw [shapeCast_self]
    exact broadcastTo_apply _ _ _ (ix2 (0 : Fin 1) q) (fun a => by
      match a with
      | ⟨0, _⟩ => rfl
      | ⟨1, _⟩ => rfl)
  show ((((IntOp.cmpi .eq (IntOp.addi (iota .tc S1024x2048 32 [0] iota_S1024x2048_d0_w32 (ix2 j q))
      (Scalar.muli (BitVec.ofNat 32 (i 2).val) 1024#32))
      (broadcastTo S1024x2048 (shapeCast S1x2048 v7 shapeCasts_S1x2048_S1x2048) broadcasts_S1x2048_S1024x2048 (ix2 j q))).setWidth 32).toInt : ℝ) : EReal) = _
  rw [e1, e2, bit_toInt]
  simp only [StableHlo.Predicate.cmpi_eq_iff]

/-- The three accumulations of one grid step, read at element `(p, q)`: onto the block's earlier contents `acc` the
    sums over the slab of `hi · oh`, then `mid · oh`, then `lo · oh`. -/
theorem step_apply (i : grid0.Coords) (v7 : Vec Ideal S1x2048 .i32) (acc : Vec Ideal S512x2048 .f32)
    (X0 X1 X2 : Vec Ideal S512x1024 .bf16) (p : Fin 512) (q : Fin 2048) :
    k0_pay1 (F := Ideal) (k0_pay3 i v7) (k0_pay6 (k0_pay5 i v7 (k0_pay4 i v7 acc X0) X1)) X2 (ix2 p q)
      = ((acc (ix2 p q) + ∑ r : Fin 1024, X0 (ix2 p r) * k0_pay3 (F := Ideal) i v7 (ix2 r q))
          + ∑ r : Fin 1024, X1 (ix2 p r) * k0_pay3 (F := Ideal) i v7 (ix2 r q))
          + ∑ r : Fin 1024, X2 (ix2 p r) * k0_pay3 (F := Ideal) i v7 (ix2 r q) := by
  unfold k0_pay1 k0_pay6 k0_pay5 k0_pay4
  simp only [shapeCast_self]
  rw [addf_apply, matmul_at, addf_apply, matmul_at, addf_apply, matmul_at]

end Cert.KernelIdeal.Body

end
-- ==== Proof.Cases.lean ====
/-
  What one run of the body leaves in the output block, as ONE term of the blocks it read.

  The body stores the whole output block three times (four at the first slab, where it first stores zeros), each store
  the earlier contents plus one product; every later load of the block reads back what the store before it wrote.  So
  the block ends at the last store's payload with the earlier payloads substituted for its loads: at a slab after the
  first, the three accumulations onto what the point before left (`out_B`); at the first slab, the same onto the zero
  block (`out_A`).
-/
import proofs.«403755_j52149492908459_3_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A load of the whole block after a list of stores whose LAST store covered the whole block reads that store's
    payload, whatever was stored before it. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- At a slab after the first: onto the block's contents `xo4` from the point before, the three accumulations. -/
theorem out_B (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x2048 .i32) (harg6 : arg6.IsWhole) (arg7 : Memref sig .tc .vmem S512x2048 .f32) (harg7 : arg7.IsWhole) (hc0 : ¬cond0_0 i)
    (x0 : Vec F S512x1024 .bf16) (x1 : Vec F S512x1024 .bf16) (x2 : Vec F S512x1024 .bf16) (x3 : Vec F S1x2048 .i32) (xo4 : Vec F S512x2048 .f32) :
    out0_B_4 c i arg3 harg3 arg4 harg4 arg5 harg5 arg6 harg6 arg7 harg7 hc0 x0 x1 x2 x3 xo4
      = k0_pay1 (k0_pay3 i x3) (k0_pay6 (k0_pay5 i x3 (k0_pay4 i x3 xo4 x0) x1)) x2 := by
  unfold out0_B_4
  rw [View.read_writes_eq_canon _ _ _ (cover0_B_4 c i arg3 harg3 arg4 harg4 arg5 harg5 arg6 harg6 arg7 harg7 hc0 x0 x1 x2 x3 xo4)]
  unfold kernelRun0_B
  dsimp only
  sl_unfold_words
  rw [View.canon_cons_unit_zero (S := S512x2048) hz]
  simp only [View.readAt_eq_ld, harg3.read_unread, harg4.read_unread, harg5.read_unread, harg6.read_unread, harg7.read_unread,
    View.ld_unit_zero (S := S512x2048) hz, View.ld_unit_zero (S := S512x1024) hz, View.ld_unit_zero (S := S1x2048) hz,
    readCov_cons_whole (S := S512x2048) _ hz]

/-- At the first slab: the same three accumulations onto the zero block the body stores first. -/
theorem out_A (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x2048 .i32) (harg6 : arg6.IsWhole) (arg7 : Memref sig .tc .vmem S512x2048 .f32) (harg7 : arg7.IsWhole) (hc0 : cond0_0 i)
    (x0 : Vec F S512x1024 .bf16) (x1 : Vec F S512x1024 .bf16) (x2 : Vec F S512x1024 .bf16) (x3 : Vec F S1x2048 .i32) :
    out0_A_4 c i arg3 harg3 arg4 harg4 arg5 harg5 arg6 harg6 arg7 harg7 hc0 x0 x1 x2 x3
      = k0_pay1 (k0_pay3 i x3) (k0_pay6 (k0_pay5 i x3 (k0_pay4 i x3 (k0_pay2 (F := F)) x0) x1)) x2 := by
  unfold out0_A_4
  rw [View.read_writes_eq_canon _ _ _ (cover0_A_4 c i arg3 harg3 arg4 harg4 arg5 harg5 arg6 harg6 arg7 harg7 hc0 x0 x1 x2 x3)]
  unfold kernelRun0_A
  dsimp only
  sl_unfold_words
  rw [View.canon_cons_unit_zero (S := S512x2048) hz]
  simp only [View.readAt_eq_ld, harg3.read_unread, harg4.read_unread, harg5.read_unread, harg6.read_unread, harg7.read_unread,
    View.ld_unit_zero (S := S512x2048) hz, View.ld_unit_zero (S := S512x1024) hz, View.ld_unit_zero (S := S1x2048) hz,
    readCov_cons_whole (S := S512x2048) _ hz]

end Cert.KernelIdeal.Cases

end
-- ==== Proof.Fold.lean ====
/-
  The output block after every grid point, in closed form.

  Fix core `c`, a grid point `t = (i, n, k)` (rows `512·i + p`, index entries `2048·n + q`, slab `k`) and an element
  `(p, q)` of the output block; write `w` for the index word of column `q` (its value, below 4096) and `b` for the row.
  After the body at `t` the block holds `x[b, w]` if `w` lies in one of the slabs `0 … k`, that is `w < 1024·(k+1)`,
  and `0` otherwise (`sel`).  For the step adds to what the point before left the three contractions with the
  one-hot slab: the `hi` one is `x[b, w]` when `w` lies in slab `k` and `0` when not (the one-hot column has its single
  one in row `w`), and the `mid` and `lo` ones vanish because `x − x = 0` wherever `x` is a real number — which is
  where the precondition's finiteness is used.  At `k = 0` the body first zeroes the block.  Induction on the point.
-/
import proofs.«403755_j52149492908459_3_alg».proof.Proof.Arrays
import proofs.«403755_j52149492908459_3_alg».proof.Proof.Body
import proofs.«403755_j52149492908459_3_alg».proof.Proof.Cases

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx Cert.OneHot Cert.KernelIdeal.Arrays Cert.KernelIdeal.Body Cert.KernelIdeal.Cases

variable (m : (ℓ : Loc nD τ sig) → Buf (Elt Ideal) ℓ)
variable (hfin : ∀ (c : Dev nD) (i : S16384x4096.Idx), xArr m c i ≠ ⊤ ∧ xArr m c i ≠ ⊥)
variable (hr : ∀ (c : Dev nD) (l : S8192.Idx), (idxArr m c l).toNat < 4096)

/-- What the output block holds at element `(p, q)` after the body at point `n`. -/
def sel (c : Dev nD) (n p q : ℕ) : EReal :=
  if idxAt m c (2048 * (n / 4 % 4) + q) < 1024 * (n % 4 + 1) then
    xAt m c (512 * (n / 16) + p) (idxAt m c (2048 * (n / 4 % 4) + q))
  else 0

/-- The four input blocks at point `t`, at their literal types. -/
abbrev hiBlk (c : Dev nD) (t : Fin cfg0.N) : Vec Ideal S512x1024 .bf16 := iblk m c 0 t
abbrev midBlk (c : Dev nD) (t : Fin cfg0.N) : Vec Ideal S512x1024 .bf16 := iblk m c 1 t
abbrev loBlk (c : Dev nD) (t : Fin cfg0.N) : Vec Ideal S512x1024 .bf16 := iblk m c 2 t
abbrev idxBlk (c : Dev nD) (t : Fin cfg0.N) : Vec Ideal S1x2048 .i32 := iblk m c 3 t

include hfin in
/-- Where `x` is a real number, `x − x = 0`. -/
theorem xAt_sub_self (c : Dev nD) (b w : ℕ) : xAt m c b w - xAt m c b w = 0 := by
  unfold xAt
  split
  · rename_i h
    exact EReal.sub_self (hfin c _).1 (hfin c _).2
  · simp

include hr in
/-- The one-hot slab at point `t`, entry `(r, q)`: one exactly when row `1024·k + r` is column `q`'s index word. -/
theorem oh_apply (c : Dev nD) (t : Fin cfg0.N) (r : Fin 1024) (q : Fin 2048) :
    k0_pay3 (F := Ideal) (grid0.coords t) (idxBlk m c t) (ix2 r q)
      = if 1024 * (t.val % 4) + r.val = idxAt m c (2048 * (t.val / 4 % 4) + q.val) then (1 : EReal) else 0 := by
  have ht : t.val < 512 := N_eq ▸ t.isLt
  have hl : 2048 * (t.val / 4 % 4) + q.val < 8192 := by omega
  rw [onehot_apply, show idxBlk m c t (ix2 (0 : Fin 1) q) = _ from idx_apply m c t q hl, clamp_id _ (hr c _), coord2 t,
    ← idxAt_eq m c _ hl]
  simp only [row_word_eq_iff r.val (t.val % 4) r.isLt (by omega)]

include hr in
/-- The `hi` contraction at `(p, q)`: `x[b, w]` when `w` lies in this point's slab, else `0`. -/
theorem sum_hi (c : Dev nD) (t : Fin cfg0.N) (p : Fin 512) (q : Fin 2048) :
    ∑ r : Fin 1024, hiBlk m c t (ix2 p r) * k0_pay3 (F := Ideal) (grid0.coords t) (idxBlk m c t) (ix2 r q)
      = if 1024 * (t.val % 4) ≤ idxAt m c (2048 * (t.val / 4 % 4) + q.val)
            ∧ idxAt m c (2048 * (t.val / 4 % 4) + q.val) < 1024 * (t.val % 4) + 1024 then
          xAt m c (512 * (t.val / 16) + p.val) (idxAt m c (2048 * (t.val / 4 % 4) + q.val))
        else 0 := by
  have e : ∀ r : Fin 1024, hiBlk m c t (ix2 p r) = xAt m c (512 * (t.val / 16) + p.val) (1024 * (t.val % 4) + r.val) :=
    fun r => hi_apply m c t p r
  simp only [e, oh_apply m hr]
  rw [sum_slab (fun r => xAt m c (512 * (t.val / 16) + p.val) (1024 * (t.val % 4) + r.val))]
  split
  · rename_i h
    exact congrArg (xAt m c (512 * (t.val / 16) + p.val)) (by show 1024 * (t.val % 4) + (_ - 1024 * (t.val % 4)) = _; omega)
  · rfl

include hfin in
/-- The `mid` contraction vanishes. -/
theorem sum_mid (c : Dev nD) (t : Fin cfg0.N) (p : Fin 512) (q : Fin 2048) :
    ∑ r : Fin 1024, midBlk m c t (ix2 p r) * k0_pay3 (F := Ideal) (grid0.coords t) (idxBlk m c t) (ix2 r q) = 0 := by
  have e : ∀ r : Fin 1024, midBlk m c t (ix2 p r) = 0 := fun r => by
    rw [show midBlk m c t (ix2 p r) = _ from mid_apply m c t p r, xAt_sub_self m hfin]
  simp only [e]
  exact sum_zero_slab _

include hfin in
/-- The `lo` contraction vanishes. -/
theorem sum_lo (c : Dev nD) (t : Fin cfg0.N) (p : Fin 512) (q : Fin 2048) :
    ∑ r : Fin 1024, loBlk m c t (ix2 p r) * k0_pay3 (F := Ideal) (grid0.coords t) (idxBlk m c t) (ix2 r q) = 0 := by
  have e : ∀ r : Fin 1024, loBlk m c t (ix2 p r) = 0 := fun r => by
    rw [show loBlk m c t (ix2 p r) = _ from lo_apply m c t p r, xAt_sub_self m hfin, sub_zero]
  simp only [e]
  exact sum_zero_slab _

include hfin hr in
/-- One grid step at `(p, q)`: the earlier contents plus the `hi` contraction. -/
theorem step_sel (c : Dev nD) (t : Fin cfg0.N) (acc : Vec Ideal S512x2048 .f32) (p : Fin 512) (q : Fin 2048) :
    k0_pay1 (F := Ideal) (k0_pay3 (grid0.coords t) (idxBlk m c t))
        (k0_pay6 (k0_pay5 (grid0.coords t) (idxBlk m c t) (k0_pay4 (grid0.coords t) (idxBlk m c t) acc (hiBlk m c t)) (midBlk m c t)))
        (loBlk m c t) (ix2 p q)
      = acc (ix2 p q)
        + (if 1024 * (t.val % 4) ≤ idxAt m c (2048 * (t.val / 4 % 4) + q.val)
              ∧ idxAt m c (2048 * (t.val / 4 % 4) + q.val) < 1024 * (t.val % 4) + 1024 then
            xAt m c (512 * (t.val / 16) + p.val) (idxAt m c (2048 * (t.val / 4 % 4) + q.val))
          else 0) := by
  rw [step_apply (grid0.coords t) (idxBlk m c t) acc (hiBlk m c t) (midBlk m c t) (loBlk m c t) p q,
    sum_hi m hr c t p q, sum_mid m hfin c t p q, sum_lo m hfin c t p q, add_zero, add_zero]

include hfin hr in
/-- THE INVARIANT: after the body at point `n` the output block holds `sel`. -/
theorem outsAt_eq (c : Dev nD) (n : ℕ) : ∀ (hn : n < cfg0.N) (p : Fin 512) (q : Fin 2048),
    (outsAt0 m c n hn : Vec Ideal S512x2048 .f32) (ix2 p q) = sel m c n p.val q.val := by
  induction n using Nat.strong_induction_on with
  | _ n ih =>
    intro hn p q
    have hN : n < 512 := N_eq ▸ hn
    by_cases h0 : n % 4 = 0
    · have e1 := outsAt0_A m c ⟨n, hn⟩ h0
      have e2 := out_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) ((hcond0_0 ⟨n, hn⟩).mpr h0) (iblk m c 0 ⟨n, hn⟩) (iblk m c 1 ⟨n, hn⟩) (iblk m c 2 ⟨n, hn⟩) (iblk m c 3 ⟨n, hn⟩)
      have e3 := step_sel m hfin hr c ⟨n, hn⟩ (k0_pay2 (F := Ideal)) p q
      refine ((congrFun (e1.trans e2) (ix2 p q)).trans e3).trans ?_
      show Ideal.ofBits .f32 0x00000000#32 + (if 1024 * (n % 4) ≤ idxAt m c (2048 * (n / 4 % 4) + q.val)
          ∧ idxAt m c (2048 * (n / 4 % 4) + q.val) < 1024 * (n % 4) + 1024 then
            xAt m c (512 * (n / 16) + p.val) (idxAt m c (2048 * (n / 4 % 4) + q.val)) else 0) = _
      rw [Ideal.ofBits_zero_f32, zero_add]
      unfold sel
      by_cases hw : idxAt m c (2048 * (n / 4 % 4) + q.val) < 1024 * (n % 4 + 1)
      · rw [if_pos hw, if_pos ⟨by omega, by omega⟩]
      · rw [if_neg hw, if_neg (by omega)]
    · have hpos : 0 < n := by omega
      have hlt : n - 1 < cfg0.N := Nat.lt_of_le_of_lt (Nat.sub_le _ _) hn
      have e1 := outsAt0_B m c ⟨n, hn⟩ h0
      have e2 := out_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (fun h => h0 ((hcond0_0 ⟨n, hn⟩).mp h)) (iblk m c 0 ⟨n, hn⟩) (iblk m c 1 ⟨n, hn⟩) (iblk m c 2 ⟨n, hn⟩) (iblk m c 3 ⟨n, hn⟩) (outsAt0 m c (n - 1) hlt)
      have e3 := step_sel m hfin hr c ⟨n, hn⟩ (outsAt0 m c (n - 1) hlt) p q
      refine ((congrFun (e1.trans e2) (ix2 p q)).trans e3).trans ?_
      show (outsAt0 m c (n - 1) hlt : Vec Ideal S512x2048 .f32) (ix2 p q) + (if 1024 * (n % 4) ≤ idxAt m c (2048 * (n / 4 % 4) + q.val)
          ∧ idxAt m c (2048 * (n / 4 % 4) + q.val) < 1024 * (n % 4) + 1024 then
            xAt m c (512 * (n / 16) + p.val) (idxAt m c (2048 * (n / 4 % 4) + q.val)) else 0) = _
      rw [ih (n - 1) (by omega) hlt p q]
      unfold sel
      rw [show (n - 1) / 4 % 4 = n / 4 % 4 from by omega, show (n - 1) / 16 = n / 16 from by omega,
        show (n - 1) % 4 + 1 = n % 4 from by omega]
      by_cases hw1 : idxAt m c (2048 * (n / 4 % 4) + q.val) < 1024 * (n % 4)
      · rw [if_pos hw1, if_neg (by omega), if_pos (by omega), add_zero]
      · by_cases hw2 : idxAt m c (2048 * (n / 4 % 4) + q.val) < 1024 * (n % 4 + 1)
        · rw [if_neg hw1, if_pos ⟨by omega, by omega⟩, if_pos hw2, zero_add]
        · rw [if_neg hw1, if_neg (by omega), if_neg hw2, add_zero]

end Cert.KernelIdeal.Fold

end
-- ==== Proof.Final.lean ====
/-
  The kernel's result array, and its run read as a value.

  The output block with block index `(i, n)` is written back once, after the last slab `k = 3` (grid points
  `≡ 3 mod 4`); there every index word's value lies below `1024·4`, so the block holds `x[512·i + p, idx[2048·n + q]]`
  at `(p, q)`: the block of `gatherCols x idx` at `(i, n)` (`flushed_eq`).  The `32 × 4` written-back blocks tile the
  `[16384, 8192]` array — element `(b, l)` lies in the block of point `16·(b/512) + 4·(l/2048) + 3` — so the array ends
  holding `gatherCols x idx` (`final`), which the run's post then states (`run`).
-/
import proofs.«403755_j52149492908459_3_alg».proof.Proof.Fold
import proofs.«403755_j52149492908459_3_alg».proof.Proof.Gen.KernelIdeal.Value

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.OneHot Cert.KernelIdeal.Arrays Cert.KernelIdeal.Fold

variable (m : (ℓ : Loc nD τ sig) → Buf (Elt Ideal) ℓ) (ρ : Dev nD → PrngReg)
variable (hfin : ∀ (c : Dev nD) (i : S16384x4096.Idx), xArr m c i ≠ ⊤ ∧ xArr m c i ≠ ⊥)
variable (hr : ∀ (c : Dev nD) (l : S8192.Idx), (idxArr m c l).toNat < 4096)

/-- What the result array ends holding: `out[b, l] = x[b, idx[l]]`. -/
abbrev result (c : Dev nD) : Buf (Elt Ideal) ((c : Thread nD τ).loc main_v9) := gatherCols (xArr m c) (idxArr m c)

include hfin hr in
/-- What a writing-back point writes is its block of `result`. -/
theorem flushed_eq (c : Dev nD) (t : Fin cfg0.N) (hf : (cfg0.win 4).flush t = true) :
    (dats m 0 c).flushed 4 t = ((cfg0.win 4).blk t).view.read (Elt Ideal) (result m c) := by
  have ht : t.val < 512 := N_eq ▸ t.isLt
  have h3 : t.val % 4 = 3 := (flush0_4 t).mp hf
  rw [Value.flushed4]
  funext y
  obtain ⟨p, q, rfl⟩ : ∃ (p : Fin 512) (q : Fin 2048), y = ix2 p q := ⟨y 0, y 1, eq_ix2 y⟩
  rw [View.read_apply]
  show (outsAt0 m c t.val t.isLt : Vec Ideal S512x2048 .f32) (ix2 p q)
    = gatherCols (xArr m c) (idxArr m c) (((cfg0.win 4).blk t).view.emb (ix2 p q))
  rw [outsAt_eq m hfin hr c t.val t.isLt p q]
  have hl : 2048 * (t.val / 4 % 4) + q.val < 8192 := by omega
  have hb : 512 * (t.val / 16) + p.val < 16384 := by omega
  have e : ((cfg0.win 4).blk t).view.emb (ix2 p q)
      = ix2 (⟨512 * (t.val / 16) + p.val, hb⟩ : Fin 16384) (⟨2048 * (t.val / 4 % 4) + q.val, hl⟩ : Fin 8192) :=
    funext fun a => Fin.ext (by
      match a with
      | ⟨0, _⟩ => show win0_4.index t 0 * 512 + 1 * p.val = 512 * (t.val / 16) + p.val; rw [(index_out t).1]; omega
      | ⟨1, _⟩ => show win0_4.index t 1 * 2048 + 1 * q.val = 2048 * (t.val / 4 % 4) + q.val; rw [(index_out t).2]; omega)
  rw [e]
  have hw := hr c (ix1 ⟨2048 * (t.val / 4 % 4) + q.val, hl⟩)
  unfold gatherCols sel
  rw [if_pos (by rw [← idxAt_eq m c _ hl]; omega), ← idxAt_eq m c _ hl, ← xAt_eq m c _ _ hb (by omega)]
  refine congrArg (xArr m c) (funext fun a => Fin.ext ?_)
  match a with
  | ⟨0, _⟩ => rfl
  | ⟨1, _⟩ => exact (col_val _ hw).symm

/-- An index of the array is in point `t`'s block iff each coordinate is in the block's range on its axis. -/
theorem mem_blk (t : Fin cfg0.N) (i : S16384x8192.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v9).slice (win0_4.rect t)).set ↔ _
  rw [View.set_slice_whole, Rect.mem_set_unit]
  exact Iff.rfl

include hfin hr in
/-- The result array after the run. -/
theorem final (c : Dev nD) : (dats m 0 c).arrAt 4 cfg0.N = result m c :=
  (dats m 0 c).arrAt_eq_of_cover 4 (result m c) (flushed_eq m hfin hr c) fun i => by
    have h0 : (i 0).val < 16384 := idx2_lt0 i
    have h1 : (i 1).val < 8192 := idx2_lt1 i
    have hT : 16 * ((i 0).val / 512) + 4 * ((i 1).val / 2048) + 3 < cfg0.N := by rw [N_eq]; omega
    refine ⟨⟨16 * ((i 0).val / 512) + 4 * ((i 1).val / 2048) + 3, hT⟩, (flush0_4 _).mpr (by
      show (16 * ((i 0).val / 512) + 4 * ((i 1).val / 2048) + 3) % 4 = 3; omega), ?_⟩
    rw [mem_blk]
    intro a
    match a with
    | ⟨0, _⟩ =>
      show win0_4.index ⟨_, hT⟩ 0 * 512 ≤ (i 0).val ∧ (i 0).val < win0_4.index ⟨_, hT⟩ 0 * 512 + 512
      rw [(index_out ⟨_, hT⟩).1]
      show (16 * ((i 0).val / 512) + 4 * ((i 1).val / 2048) + 3) / 16 * 512 ≤ (i 0).val ∧ (i 0).val < (16 * ((i 0).val / 512) + 4 * ((i 1).val / 2048) + 3) / 16 * 512 + 512
      omega
    | ⟨1, _⟩ =>
      show win0_4.index ⟨_, hT⟩ 1 * 2048 ≤ (i 1).val ∧ (i 1).val < win0_4.index ⟨_, hT⟩ 1 * 2048 + 2048
      rw [(index_out ⟨_, hT⟩).2]
      show (16 * ((i 0).val / 512) + 4 * ((i 1).val / 2048) + 3) / 4 % 4 * 2048 ≤ (i 1).val ∧ (i 1).val < (16 * ((i 0).val / 512) + 4 * ((i 1).val / 2048) + 3) / 4 % 4 * 2048 + 2048
      omega

include hfin hr in
/-- THE RUN, READ: every weakly fair execution ends with the result array at `x[b, idx[l]]` and the arguments as
    launched. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hfin hr c), (h c).2⟩) (Value.run_blocks m ρ)

end Cert.KernelIdeal.Final

end
-- ==== Proof.RefRun.lean ====
/-
  The reference's run. @main is one call of `_take`, whose body calls `_where` once; with the two bodies put in
  place of their calls the program is a straight line of twenty-four host operations, each writing one buffer of its
  own from buffers written before it. `ops` lists them in order over the buffers the calls name, `main_eq` says
  @main is that line, and `run_main` that every execution ends with each buffer at the line's fold over the launch
  contents. What the fold leaves in the result buffer is `out`, written as a function of the two arguments:

    wrapIdx ha   the index words, 4096 added to a negative one;
    startIdx ha  the same as a column of 8192 start indices of one component each;
    inRange ha   per index, whether its start index lies in [0, 4095]: the two comparisons and-ed, then
                 and-reduced over the axis of extent one;
    out x ha     where the index is in range the gathered column of x, elsewhere the constant 0x7FC00000.

  `run_out` states the run over `out` and the arguments, for any float values.
-/
import proofs.«403755_j52149492908459_3_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Cert.ReferenceIdeal.Facts]
open Facts₀ Facts

/-! ## The value, as a function of the arguments -/

/-- The index words with 4096 added to each negative one. -/
def wrapIdx (ha : IVec S8192 32) : IVec S8192 32 :=
  select (cmpi .slt ha (broadcastInDim S8192 ![] bcast_S_S8192 (constantI S_ 32 0#32)))
    (addi ha (broadcastInDim S8192 ![] bcast_S_S8192 (constantI S_ 32 4096#32))) ha

/-- Those words as 8192 start indices of one component each. -/
def startIdx (ha : IVec S8192 32) : IVec S8192x1 32 :=
  broadcastInDim S8192x1 ![0] bcast_S8192_S8192x1_0 (wrapIdx ha)

/-- Per start index, both bounds at once: at least 0 and at most 4095. -/
def bounds (ha : IVec S8192 32) : IVec S8192x1 1 :=
  andi (cmpi .sge (startIdx ha) (broadcastInDim S8192x1 ![] bcast_S_S8192x1 (constantI S_ 32 0#32)))
    (cmpi .sle (startIdx ha)
      (broadcastInDim S8192x1 ![0, 1] bcast_S1x1_S8192x1_0_1
        (broadcastInDim S1x1 ![1] bcast_S1_S1x1_1 (constantI S1 32 4095#32))))

/-- Per index, whether every component of its start index is within bounds (there is one component). -/
def inRange (ha : IVec S8192 32) : IVec S8192 1 :=
  Host.reduce IntOp.andi (bounds ha) (constantI S_ 1 1#1) reducesTo_S8192x1_S8192_d1 h_S_

/-- The result: the gathered column where the index is in range, the constant 0x7FC00000 elsewhere. -/
def out (x : FVec F S16384x4096 .f32) (ha : IVec S8192 32) : FVec F S16384x8192 .f32 :=
  select (broadcastInDim S16384x8192 ![1] bcast_S8192_S16384x8192_1 (inRange ha))
    (Host.gather gather_S16384x4096_S8192x1_S16384x8192_0_1_n_n_1_1_163841 x (startIdx ha))
    (broadcastInDim S16384x8192 ![] bcast_S_S16384x8192 (constant S_ .f32 0x7FC00000#32))

/-! ## The program as a straight line -/

/-- @main's twenty-four operations in order, the calls unfolded: `_take`'s six up to the sum, `_where`'s select into the
    inner call's buffer, then `_take`'s remaining seventeen, the last writing @main's result. -/
abbrev ops : List (HloOp τ sig (Elt F)) :=
  [ TRef.nullary main_call0.c (constantI S_ 32 0#32),
    TRef.unary main_call0.c main_call0.v0 (broadcastInDim S8192 ![] bcast_S_S8192),
    TRef.binary (.of main_arg1) main_call0.v0 main_call0.v1 (cmpi .slt),
    TRef.nullary main_call0.c_0 (constantI S_ 32 4096#32),
    TRef.unary main_call0.c_0 main_call0.v2 (broadcastInDim S8192 ![] bcast_S_S8192),
    TRef.binary (.of main_arg1) main_call0.v2 main_call0.v3 addi,
    TRef.ternary main_call0.v1 main_call0.v3 (.of main_arg1) main_call0.call0.v0 select,
    TRef.unary main_call0.call0.v0 main_call0.v5 (broadcastInDim S8192x1 ![0] bcast_S8192_S8192x1_0),
    TRef.nullary main_call0.c_1 (constantI S1 32 4095#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg0) main_call0.v5 main_call0.v13 (fun x i => Host.gather gather_S16384x4096_S8192x1_S16384x8192_0_1_n_n_1_1_163841 x i),
    TRef.unary main_call0.v12 main_call0.v14 (broadcastInDim S16384x8192 ![1] bcast_S8192_S16384x8192_1),
    TRef.nullary main_call0.cst (constant S_ .f32 0x7FC00000#32),
    TRef.unary main_call0.cst main_call0.v15 (broadcastInDim S16384x8192 ![] bcast_S_S16384x8192),
    TRef.ternary main_call0.v14 main_call0.v13 main_call0.v15 main_call0.v16 select ]

-- twenty-four binds re-associated, one level of recursion per statement
set_option maxRecDepth 1024 in
/-- @main is that line: the two bodies unfolded at their calls and sequencing re-associated, both sides are the same
    chain of steps. -/
theorem main_eq (c : Dev nD) : main (F := F) c = seq ops := by
  simp only [main, fn_take.body, fn_where.body, seq, bind_assoc, pure_bind]

attribute [local irreducible] Host.reduce Host.gather in
set_option maxRecDepth 4096 in
/-- The fold at the result buffer is `out` of the two arguments' contents: at its own result buffer each operation leaves
    its function's value, at any other buffer what was there; a value carried to its buffer's type and read back at its
    own is the value (a cast there and back is the identity), and what is left is `out` unfolded. The reduction and the
    gather stay folded meanwhile: the equation does not look inside them. -/
theorem out_eq (V : Valuation τ sig (Elt F)) :
    after ops V (main_v0 : DevRef τ sig) = out (V (main_arg0 : DevRef τ sig)) (V (main_arg1 : DevRef τ sig)) := by
  after_results
  simp only [TRef.ofBuf, TRef.toBuf, cast_cast, cast_eq]
  rfl

/-- No operation writes the first argument. -/
theorem arg0_eq (V : Valuation τ sig (Elt F)) :
    after ops V (main_arg0 : DevRef τ sig) = V (main_arg0 : DevRef τ sig) := by
  after_results

/-- No operation writes the second argument. -/
theorem arg1_eq (V : Valuation τ sig (Elt F)) :
    after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- For any float values, from any memory with zero counters: every weakly fair execution of @main terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The same with the fold read back: the result buffer ends at `out` of the arguments' launch contents, and the
    arguments end as they were. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_main m ρ)

end Cert.ReferenceIdeal.RefRun

end
-- ==== Proof.RefValue.lean ====
/-
  The reference's value. For index words below 4096 the reference's result buffer ends at the selected columns of its
  first argument, `out[b, l] = x[b, idx[l]]` (`Cert.OneHot.gatherCols`).

  The run leaves `out x idx` there (the run's module): the gather of `x` at the start indices, kept where the start
  index lies in [0, 4095] and replaced by a constant elsewhere. Read at an index `(b, l)` under the hypothesis:
    * no word is negative, so the wrap-around adds nothing: the start index of `l` is `idx l` (`wrapIdx_apply`, `startIdx_apply`);
    * both bound tests hold of it, so their conjunction reduced over the one component is 1 (`bounds_apply`,
      `inRange_apply`: a left fold by and from 1 over ones) and the select keeps the gather;
    * the gather reads row `b` (the offset axis, sliced whole from 0) at the column the start index names, read signed
      and clamped into [0, 4095] (`gather_apply`): for a word below 4096 signed and unsigned readings agree and the
      clamp is the cap in `gatherCols`.
  `run` is the statement over the program's run.
-/
import proofs.«403755_j52149492908459_3_alg».proof.Proof.RefRun
import proofs.«403755_j52149492908459_3_alg».proof.Proof.Slab
import Idealize.ShloMosaic.PureOps.Ideal
import Idealize.ShloMosaic.PureOps.Reduce
import Idealize.ShloMosaic.Lib.ValueIdx
import Idealize.ShloMosaic.Lib.Affine
import Idealize.ShloMosaic.Lib.StableHlo.Predicate

noncomputable section

namespace Cert.ReferenceIdeal.RefValue

open Cert.ReferenceIdeal Cert.ReferenceIdeal.RefRun Idealize.ShloMosaic Idealize.ShloMosaic.TcCoe Idealize.SL.Sem
open Idealize.ShloMosaic.StableHlo Idealize.ShloMosaic.ValueIdx

variable [Cert.ReferenceIdeal.Facts]
open Facts₀ Facts

/-! ## Words -/

/-- A word below 4096 is not negative: the signed test against zero is clear. -/
theorem slt_zero_clear (w : BitVec 32) (hw : w.toNat < 4096) : IntOp.cmpi .slt w 0#32 = 0#1 := by
  apply eq_zero_of_ne_one
  rw [Predicate.slt_iff_toNat (by omega) (by decide)]
  show ¬ w.toNat < 0
  omega

/-- A word below 4096 passes both bounds: it is at least 0 and at most 4095, signed. -/
theorem bounds_word (w : BitVec 32) (hw : w.toNat < 4096) :
    IntOp.andi (IntOp.cmpi .sge w 0#32) (IntOp.cmpi .sle w 4095#32) = 1#1 := by
  rw [IntOp.andi_eq_one]
  refine ⟨(Predicate.sge_iff_toNat (by omega) (by decide)).2 ?_, (Predicate.sle_iff_toNat (by omega) (by decide)).2 ?_⟩
  · show 0 ≤ w.toNat
    omega
  · show w.toNat ≤ 4095
    omega

/-- A left fold by `and` from 1 over ones is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_ones f hf l

/-! ## The intermediate values at an index, for index words below 4096 -/

section
variable (ha : IVec S8192 32) (hr : ∀ l : S8192.Idx, (ha l).toNat < 4096)
include hr

/-- No word is negative, so none has 4096 added. -/
theorem wrapIdx_apply (l : S8192.Idx) : wrapIdx ha l = ha l := by
  show Scalar.select (IntOp.cmpi .slt (ha l) 0#32) _ (ha l) = ha l
  rw [slt_zero_clear _ (hr l), select_zero]

omit hr in
/-- Start index `j`'s one component is the word at `j`'s first coordinate. -/
theorem startIdx_apply (j : S8192x1.Idx) : startIdx ha j = wrapIdx ha (ix1 (j 0)) := by
  unfold startIdx broadcastInDim
  congr 1
  funext a
  obtain rfl : a = 0 := Subsingleton.elim _ _
  rw [dif_neg (by decide)]
  rfl

/-- Every start index is within bounds. -/
theorem bounds_apply (j : S8192x1.Idx) : bounds ha j = 1#1 := by
  show IntOp.andi (IntOp.cmpi .sge (startIdx ha j) 0#32) (IntOp.cmpi .sle (startIdx ha j) 4095#32) = 1#1
  rw [startIdx_apply, wrapIdx_apply ha hr]
  exact bounds_word _ (hr _)

/-- So every index is in range. -/
theorem inRange_apply (l : S8192.Idx) : inRange ha l = 1#1 := by
  unfold inRange
  rw [Host.reduce_eq_foldl]
  exact foldl_andi_ones _ (bounds_apply ha hr) _

end

/-! ## The gather at an index -/

/-- The start-indices index result index `i` reads: row `i 1`, its one component. -/
abbrev siOf (i : S16384x8192.Idx) : S8192x1.Idx := ix2 (i 1) (0 : Fin 1)

/-- THE GATHER READ AT `(b, l)`: row `b` of the operand at the column start index `l` names, read signed and clamped into
    [0, 4095]. Axis 0 is the offset axis (slice the whole axis from 0), axis 1 is collapsed and start-indexed. -/
theorem gather_apply {α : Type} (x : S16384x4096.Idx → α) (idx : IVec S8192x1 32) (i : S16384x8192.Idx) :
    Host.gather gather_S16384x4096_S8192x1_S16384x8192_0_1_n_n_1_1_163841 x idx i
      = x (ix2 (i 0) ⟨min (idx (siOf i)).toInt.toNat 4095, by omega⟩) := by
  have h0sim : (0 : Fin 2) ∉ (gather_S16384x4096_S8192x1_S16384x8192_0_1_n_n_1_1_163841).startIndexMap := by
    show (0 : Fin 2) ∉ ([1] : List (Fin 2))
    decide
  have h1sim : (1 : Fin 2) ∈ (gather_S16384x4096_S8192x1_S16384x8192_0_1_n_n_1_1_163841).startIndexMap := by
    show (1 : Fin 2) ∈ ([1] : List (Fin 2))
    exact List.mem_singleton.mpr rfl
  have h0kept : (0 : Fin 2) ∈ (gather_S16384x4096_S8192x1_S16384x8192_0_1_n_n_1_1_163841).sKept := by
    show (0 : Fin 2) ∈ S16384x4096.kept ([1] ++ [])
    decide
  unfold Host.gather
  congr 1
  funext a
  refine Fin.ext ?_
  match a with
  | ⟨0, _⟩ =>
    show GatherDims.start _ i idx 0 + GatherDims.batchCoord _ i 0 + GatherDims.offCoord _ i 0 = (i 0).val
    rw [GatherDims.batchCoord_eq_zero _ _ _ List.not_mem_nil]
    unfold GatherDims.start GatherDims.offCoord
    rw [dif_neg h0sim, dif_pos h0kept]
    simp only [Nat.zero_add, Nat.add_zero]
    rfl
  | ⟨1, _⟩ =>
    show GatherDims.start _ i idx 1 + GatherDims.batchCoord _ i 1 + GatherDims.offCoord _ i 1 = min (idx (siOf i)).toInt.toNat 4095
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos h1sim]
    have hsi : GatherDims.siIdx gather_S16384x4096_S8192x1_S16384x8192_0_1_n_n_1_1_163841 i
        ⟨List.idxOf (1 : Fin 2) (gather_S16384x4096_S8192x1_S16384x8192_0_1_n_n_1_1_163841).startIndexMap,
          List.idxOf_lt_length_iff.2 h1sim⟩ = siOf i := by
      funext b
      refine Fin.ext ?_
      match b with
      | ⟨0, _⟩ => rfl
      | ⟨1, _⟩ => rfl
    rw [hsi]
    rfl

/-! ## The value -/

/-- For index words below 4096 the reference's result is the selected columns: every index is in range, so the select
    keeps the gather everywhere; the gather's clamp leaves such a word as it is, read signed or unsigned. -/
theorem out_eq_gatherCols (x : FVec Ideal S16384x4096 .f32) (ha : IVec S8192 32)
    (hr : ∀ l : S8192.Idx, (ha l).toNat < 4096) : out (F := Ideal) x ha = Cert.OneHot.gatherCols x ha := by
  funext i
  show Scalar.select (inRange ha _) (Host.gather _ x (startIdx ha) i) _ = _
  rw [inRange_apply ha hr, select_one, gather_apply]
  refine congrArg (fun c : Fin 4096 => x (ix2 (i 0) c)) (Fin.ext ?_)
  show min (startIdx ha (siOf i)).toInt.toNat 4095 = min (ha (ix1 (i 1))).toNat 4095
  rw [startIdx_apply, wrapIdx_apply ha hr]
  have hw := hr (ix1 (i 1))
  have hti : (ha (ix1 (i 1))).toInt = ((ha (ix1 (i 1))).toNat : ℤ) := Predicate.toInt_eq_toNat_of_lt (by omega)
  show min (ha (ix1 (i 1))).toInt.toNat 4095 = min (ha (ix1 (i 1))).toNat 4095
  rw [hti, Int.toNat_natCast]

/-! ## The run -/

/-- At the ideal instance, from any memory with zero counters whose index words are all below 4096: every weakly fair
    execution of @main terminates with the result buffer at the selected columns of the first argument and both
    arguments unchanged. -/
theorem run (m : (ℓ : Loc nD τ sig) → Buf (Elt Ideal) ℓ) (ρ : Dev nD → PrngReg)
    (hr : ∀ (c : Dev nD) (l : S8192.Idx), (m ((c.tc : Thread nD τ).loc main_arg1) l).toNat < 4096) :
    θ_run (defs (F := Ideal)) (onTc (τ := τ) (main (F := Ideal))) ⟨m, fun _ => 0, ρ⟩ fun r => ∀ c : Dev nD,
      r.2.mem ((c.tc : Thread nD τ).loc main_v0)
          = Cert.OneHot.gatherCols (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans (out_eq_gatherCols _ _ (hr c)), (h c).2.1, (h c).2.2⟩)
    (RefRun.run_out m ρ)

end Cert.ReferenceIdeal.RefValue

end
-- ==== Proof.lean ====
/-
  A column gather computed as a one-hot matrix product, against `jnp.take`.

  The kernel clamps the index words to `[0, 4095]`, splits `x : [16384, 4096]` by narrowing into `hi`, `mid = x − hi`,
  `lo = (x − hi) − mid`, and on a `32 × 4 × 4` grid accumulates, slab by slab of 1024 input columns, the products of the
  three parts with the one-hot slab `[1024·k + j = idx[l]]` into the `[512, 2048]` output block.  The reference gathers
  column `idx[l]` of `x` directly (an index below zero wraps by 4096 first; an index out of range gives a NaN).  Under the
  precondition — every `x` finite, every index in `[0, 4096)` — both end with `out[b, l] = x[b, idx[l]]`
  (`Cert.OneHot.gatherCols`) over the extended reals: a change of float format is the identity there, so `hi` is `x`
  and `mid`, `lo` are `x − x = 0` (this is where finiteness is used); the one-hot column has its single one in row
  `idx[l]`, so the contraction picks `x[b, idx[l]]`, every other product being `x · 0 = 0`; the clamp and the
  reference's wrap and range mask are the identity on indices in range.

  The modules: `Slab` (the arithmetic of a one-hot contraction, and `gatherCols`), `PreRead` (the precondition read),
  `Body` (one grid step at an element), `Cases` (what one run of the body leaves), `Arrays` (the arrays at region entry
  and the windows' blocks), `Fold` (the output block after every point, by induction), `Final` (the result array and
  the kernel's run), `RefRun` and `RefValue` (the reference's run and its value).  The two kernel frames are the
  generated ones; the reference's frame is its run with the result dropped; the ideal pass rewrote nothing.
-/
import proofs.«403755_j52149492908459_3_alg».proof.Defs
import proofs.«403755_j52149492908459_3_alg».proof.Proof.Gen.Kernel
import proofs.«403755_j52149492908459_3_alg».proof.Proof.Gen.Kernel.Skeleton
import proofs.«403755_j52149492908459_3_alg».proof.Proof.Gen.Kernel.Launch
import proofs.«403755_j52149492908459_3_alg».proof.Proof.Gen.Kernel.Points
import proofs.«403755_j52149492908459_3_alg».proof.Proof.Gen.Kernel.Frame
import proofs.«403755_j52149492908459_3_alg».proof.Proof.Gen.KernelIdeal
import proofs.«403755_j52149492908459_3_alg».proof.Proof.Gen.KernelIdeal.Skeleton
import proofs.«403755_j52149492908459_3_alg».proof.Proof.Gen.KernelIdeal.Launch
import proofs.«403755_j52149492908459_3_alg».proof.Proof.Gen.KernelIdeal.Points
import proofs.«403755_j52149492908459_3_alg».proof.Proof.Gen.KernelIdeal.Frame
import proofs.«403755_j52149492908459_3_alg».proof.Proof.Gen.KernelIdeal.Value
import proofs.«403755_j52149492908459_3_alg».proof.Proof.Gen.ReferenceIdeal
import proofs.«403755_j52149492908459_3_alg».proof.Proof.Gen.Pre_finite_inputs
import proofs.«403755_j52149492908459_3_alg».proof.Proof.PreRead
import proofs.«403755_j52149492908459_3_alg».proof.Proof.Final
import proofs.«403755_j52149492908459_3_alg».proof.Proof.RefValue
import Idealize.ShloMosaic.Adequacy
import Idealize.ShloMosaic.Init

noncomputable section

namespace Cert.Proof

open Idealize.ShloMosaic Idealize.SL.Sem

/-- The word-level kernel runs and leaves its arguments as they were: the generated frame. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.RefRun.run_out (F := Ideal) m ρ)

/-- Both programs end with `out[b, l] = x[b, idx[l]]` of arguments that agree. -/
theorem algebraic : Cert.algebraic_KernelIdeal_ReferenceIdeal := by
  intro m ρ m' ρ' hpre hagree
  have hfin := fun c => (Cert.OneHot.of_pre _ _ (hpre c)).1
  have hr := fun c => (Cert.OneHot.of_pre _ _ (hpre c)).2
  refine ⟨fun c => Cert.OneHot.gatherCols (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ hfin hr, ?_⟩
  refine (θ_run Cert.ReferenceIdeal.defs _ _).mono (fun _ h c => ⟨(h c).1.trans ?_, (h c).2⟩)
    (Cert.ReferenceIdeal.RefValue.run m' ρ' (fun c l => by rw [(hagree c).2]; exact hr c l))
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
